-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S256x1024 : Shape := ⟨2, ![256, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S1024x512 .f32) (main_arg8 : FVec F S512 .f32) (main_v33 : IVec S_ 1) : IVec S_ 1 :=
  let main_v34 : FVec F S1024x512 .f32 := Host.absf main_arg7
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x512 .f32) (main_arg8 : FVec F S512 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S65536x512 .f32) (main_arg1 : FVec F S256x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x512 .f32) (main_arg8 : FVec F S512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S65536x512 : Shape := ⟨2, ![65536, 512]⟩
abbrev S256x1024 : Shape := ⟨2, ![256, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S1x1024 : Shape := ⟨2, ![1, 1024]⟩
abbrev S1x512 : Shape := ⟨2, ![1, 512]⟩
abbrev S65536x1 : Shape := ⟨2, ![65536, 1]⟩
abbrev S512x512 : Shape := ⟨2, ![512, 512]⟩
abbrev S512x1 : Shape := ⟨2, ![512, 1]⟩
abbrev S512x256 : Shape := ⟨2, ![512, 256]⟩
abbrev S512x1024 : Shape := ⟨2, ![512, 1024]⟩
abbrev S65536 : Shape := ⟨1, ![65536]⟩

abbrev nBuf : Space → Nat
  | .hbm => 20
  | .vmem => 14
  | .smem => 0
  | _ => 0

abbrev bufTy : (tb : Table) → Fin (tcTables nBuf tb) → BufTy
  | .hbm, ⟨0, _⟩ => ⟨S65536x512, .f32⟩
  | .hbm, ⟨1, _⟩ => ⟨S256x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x512, .f32⟩
  | .hbm, ⟨8, _⟩ => ⟨S512, .f32⟩
  | .hbm, ⟨9, _⟩ => ⟨S256x1024, .bf16⟩
  | .hbm, ⟨10, _⟩ => ⟨S1024x1024, .bf16⟩
  | .hbm, ⟨11, _⟩ => ⟨S1024x1024, .bf16⟩
  | .hbm, ⟨12, _⟩ => ⟨S1024x512, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x512, .f32⟩
  | .hbm, ⟨17, _⟩ => ⟨S65536x512, .f32⟩
  | .hbm, ⟨18, _⟩ => ⟨S65536x1, .f32⟩
  | .hbm, ⟨19, _⟩ => ⟨S65536, .f32⟩
  | .local _ .vmem, ⟨0, _⟩ => ⟨S512x512, .f32⟩
  | .local _ .vmem, ⟨1, _⟩ => ⟨S512x512, .f32⟩
  | .local _ .vmem, ⟨2, _⟩ => ⟨S256x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x512, .bf16⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x1, .f32⟩
  | .local _ .vmem, ⟨13, _⟩ => ⟨S512x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  shapeCasts_S1024_S1x1024 : S1024.ShapeCasts S1x1024
  shapeCasts_S512_S1x512 : S512.ShapeCasts S1x512
  inb_S512x512_S512x512_0_0 : ∀ a, (![0, 0] : Fin 2 → Nat) a + S512x512.size a ≤ S512x512.size a
  h_S512x512 : 0 < S512x512.numel
  slices_S512x512_o0_0_S512x256 : S512x512.Slices ![0, 0] S512x256
  slices_S512x512_o0_256_S512x256 : S512x512.Slices ![0, 256] S512x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x256_0_0 : ∀ a, (![0, 0] : Fin 2 → Nat) a + S512x256.size a ≤ S512x512.size a
  h_S512x256 : 0 < S512x256.numel
  inb_S512x512_S512x256_0_256 : ∀ a, (![0, 256] : Fin 2 → Nat) a + S512x256.size a ≤ S512x512.size a
  reduces_S512x256_S512 : S512x256.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S65536x1_S65536 : S65536x1.ShapeCasts S65536
  dot_S512x256_S256x1024_S512x1024_1_0_0_1_n_n_wf : DotDims.WF S512x256 S256x1024 S512x1024 [1] [0] [0] [1] [] []
  dot_S512x1024_S1024x1024_S512x1024_1_0_0_1_n_n_wf : DotDims.WF S512x1024 S1024x1024 S512x1024 [1] [0] [0] [1] [] []
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S65536x512.size a
  hwx0_0 : ∀ i : grid0.Coords, EltTy.bits .f32 = 32 ∨ (Rect.block (s := S65536x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S1024x512.size a
  hwx0_7 : ∀ i : grid0.Coords, EltTy.bits .bf16 = 32 ∨ (Rect.block (s := S1024x512) S1024x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S65536x512.size a
  hwx0_9 : ∀ i : grid0.Coords, EltTy.bits .f32 = 32 ∨ (Rect.block (s := S65536x512) S512x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1.size a ≤ S65536x1.size a
  hwx0_10 : ∀ i : grid0.Coords, EltTy.bits .f32 = 32 ∨ (Rect.block (s := S65536x1) S512x1.size (cc0_transform_10 i) (hinb0_10 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8_0) S512x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_1) S512x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536x512 : Shape := ⟨2, ![65536, 512]⟩
abbrev S256x1024 : Shape := ⟨2, ![256, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S65536x256 : Shape := ⟨2, ![65536, 256]⟩
abbrev S65536x1024 : Shape := ⟨2, ![65536, 1024]⟩
abbrev S1x1024 : Shape := ⟨2, ![1, 1024]⟩
abbrev S_ : Shape := ⟨0, ![]⟩
abbrev S1x512 : Shape := ⟨2, ![1, 512]⟩
abbrev S65536 : Shape := ⟨1, ![65536]⟩

abbrev nBuf : Space → Nat
  | .hbm => 58
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S256x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x512, .f32⟩
  | .hbm, ⟨8, _⟩ => ⟨S512, .f32⟩
  | .hbm, ⟨9, _⟩ => ⟨S65536x256, .f32⟩
  | .hbm, ⟨10, _⟩ => ⟨S65536x256, .f32⟩
  | .hbm, ⟨11, _⟩ => ⟨S65536x1024, .f32⟩
  | .hbm, ⟨12, _⟩ => ⟨S1x1024, .f32⟩
  | .hbm, ⟨13, _⟩ => ⟨S65536x1024, .f32⟩
  | .hbm, ⟨14, _⟩ => ⟨S65536x1024, .f32⟩
  | .hbm, ⟨15, _⟩ => ⟨S_, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S_, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S1x1024, .f32⟩
  | .hbm, ⟨27, _⟩ => ⟨S65536x1024, .f32⟩
  | .hbm, ⟨28, _⟩ => ⟨S65536x1024, .f32⟩
  | .hbm, ⟨29, _⟩ => ⟨S_, .f32⟩
  | .hbm, ⟨30, _⟩ => ⟨S65536x1024, .f32⟩
  | .hbm, ⟨31, _⟩ => ⟨S65536x1024, .f32⟩
  | .hbm, ⟨32, _⟩ => ⟨S65536x512, .f32⟩
  | .hbm, ⟨33, _⟩ => ⟨S1x512, .f32⟩
  | .hbm, ⟨34, _⟩ => ⟨S65536x512, .f32⟩
  | .hbm, ⟨35, _⟩ => ⟨S65536x512, .f32⟩
  | .hbm, ⟨36, _⟩ => ⟨S65536x256, .f32⟩
  | .hbm, ⟨37, _⟩ => ⟨S65536x256, .f32⟩
  | .hbm, ⟨38, _⟩ => ⟨S_, .f32⟩
  | .hbm, ⟨39, _⟩ => ⟨S65536x256, .f32⟩
  | .hbm, ⟨40, _⟩ => ⟨S65536x256, .f32⟩
  | .hbm, ⟨41, _⟩ => ⟨S65536x256, .f32⟩
  | .hbm, ⟨42, _⟩ => ⟨S65536x256, .f32⟩
  | .hbm, ⟨43, _⟩ => ⟨S_, .f32⟩
  | .hbm, ⟨44, _⟩ => ⟨S65536x256, .f32⟩
  | .hbm, ⟨45, _⟩ => ⟨S65536x256, .f32⟩
  | .hbm, ⟨46, _⟩ => ⟨S_, .f32⟩
  | .hbm, ⟨47, _⟩ => ⟨S65536x256, .f32⟩
  | .hbm, ⟨48, _⟩ => ⟨S65536x256, .f32⟩
  | .hbm, ⟨49, _⟩ => ⟨S_, .f32⟩
  | .hbm, ⟨50, _⟩ => ⟨S65536x256, .f32⟩
  | .hbm, ⟨51, _⟩ => ⟨S65536x256, .f32⟩
  | .hbm, ⟨52, _⟩ => ⟨S65536x256, .f32⟩
  | .hbm, ⟨53, _⟩ => ⟨S65536x256, .f32⟩
  | .hbm, ⟨54, _⟩ => ⟨S65536x256, .f32⟩
  | .hbm, ⟨55, _⟩ => ⟨S65536x512, .f32⟩
  | .hbm, ⟨56, _⟩ => ⟨S_, .f32⟩
  | .hbm, ⟨57, _⟩ => ⟨S65536, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_cst : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call2_cst : Ref sig .tc := ⟨.hbm, 29, rfl⟩
abbrev main_call2_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_0 : Ref sig .tc := ⟨.hbm, 43, rfl⟩
abbrev main_v27 : Ref sig .tc := ⟨.hbm, 44, rfl⟩
abbrev main_v28 : Ref sig .tc := ⟨.hbm, 45, rfl⟩
abbrev main_cst_1 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩

abbrev nD : Nat := 1
abbrev τ : Topo := Topo.v7x

variable {F : FTy → Type} [FloatOps F]

class Facts₀ : Prop where
  slices_S65536x512_S65536x256_0_0 : S65536x512.Slices ![0, 0] S65536x256
  slices_S65536x512_S65536x256_0_256 : S65536x512.Slices ![0, 256] S65536x256
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x256 : S_.BroadcastsInDim S65536x256 (![] : Fin 0 → Fin S65536x256.rank)
  concatenates_S65536x256_S65536x256_S65536x512_d1 : Shape.Concatenates [S65536x256, S65536x256] S65536x512 1
  reducesTo_S65536x256_S65536_d1 : S65536x256.ReducesTo [1] S65536
  h_S_ : 0 < S_.numel
  dot_S65536x256_S256x1024_S65536x1024_1_0_0_1_n_n_wf : DotDims.WF S65536x256 S256x1024 S65536x1024 [1] [0] [0] [1] [] []
  dot_S65536x1024_S1024x1024_S65536x1024_1_0_0_1_n_n_wf : DotDims.WF S65536x1024 S1024x1024 S65536x1024 [1] [0] [0] [1] [] []
  dot_S65536x1024_S1024x512_S65536x512_1_0_0_1_n_n_wf : DotDims.WF S65536x1024 S1024x512 S65536x512 [1] [0] [0] [1] [] []

variable [Facts₀]

def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf
def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x1024_S1024x512_S65536x512_1_0_0_1_n_n : DotDims S65536x1024 S1024x512 S65536x512 where
  lhsContracting := [1]
  rhsContracting := [0]
  lhsNonContracting := [0]
  rhsNonContracting := [1]
  lhsBatch := []
  rhsBatch := []
  wf := dot_S65536x1024_S1024x512_S65536x512_1_0_0_1_n_n_wf

class Facts : Prop extends Facts₀ where

variable [Facts]
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.LibDense.lean ====
/-
  A dense (affine) layer read at an index.

  One unit j of an affine layer is the sum over the layer's inputs κ of h κ * W (κ, j), plus the unit's bias b j.
  On the accelerator the layer is a matmul into the zero accumulator plus a bias row [1, N] broadcast down the M rows;
  on the host it is a dot_general plus a bias vector [N] broadcast first to [1, N] and then to [M, N]. At the extended
  reals both, read at (p, j), are that one expression of row p of the left operand. The rectified forms take the
  maximum with a splat scalar.
-/
import proofs.«120934_j28260884807682_1_alg».proof.Proof.LibPlainDot
import Idealize.ShloMosaic.Lib.ValueLayout
import Idealize.ShloMosaic.Lib.Pipeline.Value
import Idealize.ShloMosaic.Lib.IdealHost

noncomputable section

open scoped BigOperators

namespace Idealize.ShloMosaic.DenseLayer
open Idealize.ShloMosaic Idealize.ShloMosaic.ValueIdx

/-- Unit j of an affine layer with inputs h, weights W and biases b. -/
def affine {K N : Nat} (h : Fin K → EReal) (W : Fin K → Fin N → EReal) (b : Fin N → EReal) (j : Fin N) : EReal :=
  (∑ κ : Fin K, h κ * W κ j) + b j

/-- The unit after a rectifier against the value z. -/
def rectified {K N : Nat} (z : EReal) (h : Fin K → EReal) (W : Fin K → Fin N → EReal) (b : Fin N → EReal) (j : Fin N) : EReal :=
  max (affine h W b j) z

/-- The affine unit depends on its inputs pointwise. -/
theorem affine_congr {K N : Nat} {h h' : Fin K → EReal} (e : ∀ κ, h κ = h' κ) (W : Fin K → Fin N → EReal) (b : Fin N → EReal)
    (j : Fin N) : affine h W b j = affine h' W b j := by
  rw [show h = h' from funext e]

/-- So does the rectified unit. -/
theorem rectified_congr {K N : Nat} (z : EReal) {h h' : Fin K → EReal} (e : ∀ κ, h κ = h' κ) (W : Fin K → Fin N → EReal)
    (b : Fin N → EReal) (j : Fin N) : rectified z h W b j = rectified z h' W b j := by
  rw [show h = h' from funext e]

/-! ## Pointwise operations read at an index -/

section Pointwise
variable {s : Shape} {φ : FTy}

/-- The logistic function at an index is the logistic function of the element. -/
theorem logistic_apply (a : FVec Ideal s φ) (i : s.Idx) : logistic a i = Ideal.logistic (a i) := rfl
/-- The logarithm at an index is the logarithm of the element. -/
theorem log_apply (a : FVec Ideal s φ) (i : s.Idx) : log a i = Ideal.log (a i) := rfl
/-- A scalar word is the extended real it encodes. -/
theorem scalar_ofBits (b : BitVec φ.bits) : Scalar.ofBits (F := Ideal) φ b = Ideal.ofBits φ b := rfl
/-- The host's exponential, negation and logarithm at an index. -/
theorem hostExp_apply (a : FVec Ideal s φ) (i : s.Idx) : Host.exp a i = Ideal.exp (a i) := rfl
theorem hostNegf_apply (a : FVec Ideal s φ) (i : s.Idx) : Host.negf a i = -(a i) := rfl
theorem hostLog_apply (a : FVec Ideal s φ) (i : s.Idx) : Host.log a i = Ideal.log (a i) := rfl

end Pointwise

/-! ## The layer on the accelerator and on the host -/

section Accelerator
variable {M K N : Nat} {φ₁ φ₂ : FTy} (d : DotDims ⟨2, ![M, K]⟩ ⟨2, ![K, N]⟩ ⟨2, ![M, N]⟩) (hd : PlainDot.IsPlain d)
  (prec : Option ContractPrecision) (l : FVec Ideal ⟨2, ![M, K]⟩ φ₁) (w : FVec Ideal ⟨2, ![K, N]⟩ φ₂)
  (b : FVec Ideal ⟨2, ![1, N]⟩ .f32) (hb : (⟨2, ![1, N]⟩ : Shape).Broadcasts ⟨2, ![M, N]⟩)
include hd

/-- A matmul into the zero accumulator plus a bias row broadcast down the rows, at (p, j): the affine unit j of row p. -/
theorem matmul_bias_apply (p : Fin M) (j : Fin N) :
    addf (matmul d prec l w (constant ⟨2, ![M, N]⟩ .f32 0x00000000#32)) (broadcastTo ⟨2, ![M, N]⟩ b hb) (ix2 p j)
      = affine (fun κ => l (ix2 p κ)) (fun κ j => w (ix2 κ j)) (fun j => b (ix2 (0 : Fin 1) j)) j := by
  show FloatOps.matmul d prec l w (constant ⟨2, ![M, N]⟩ .f32 0x00000000#32) (ix2 p j) + broadcastTo ⟨2, ![M, N]⟩ b hb (ix2 p j) = _
  rw [PlainDot.matmul_zero_plain d hd, broadcastTo_1b_ab_apply]
  rfl

/-- The same layer followed by the maximum with a splat scalar. -/
theorem matmul_bias_max_apply (z : BitVec 32) (p : Fin M) (j : Fin N) :
    maximumf (addf (matmul d prec l w (constant ⟨2, ![M, N]⟩ .f32 0x00000000#32)) (broadcastTo ⟨2, ![M, N]⟩ b hb))
        (broadcast ⟨2, ![M, N]⟩ (Scalar.ofBits (F := Ideal) .f32 z)) (ix2 p j)
      = rectified (Ideal.ofBits .f32 z) (fun κ => l (ix2 p κ)) (fun κ j => w (ix2 κ j)) (fun j => b (ix2 (0 : Fin 1) j)) j := by
  show max (addf (matmul d prec l w (constant ⟨2, ![M, N]⟩ .f32 0x00000000#32)) (broadcastTo ⟨2, ![M, N]⟩ b hb) (ix2 p j)) _ = _
  rw [matmul_bias_apply d hd prec l w b hb p j]
  rfl

end Accelerator

section Host
variable {M K N : Nat} {φ₁ φ₂ : FTy} (d : DotDims ⟨2, ![M, K]⟩ ⟨2, ![K, N]⟩ ⟨2, ![M, N]⟩) (hd : PlainDot.IsPlain d)
  (prec : Option ContractPrecision) (l : FVec Ideal ⟨2, ![M, K]⟩ φ₁) (w : FVec Ideal ⟨2, ![K, N]⟩ φ₂)
  (b : FVec Ideal ⟨1, ![N]⟩ .f32)
  (h1 : (⟨1, ![N]⟩ : Shape).BroadcastsInDim ⟨2, ![1, N]⟩ ![1])
  (h2 : (⟨2, ![1, N]⟩ : Shape).BroadcastsInDim ⟨2, ![M, N]⟩ ![0, 1])

/-- A bias vector broadcast to one row and then down the rows, at (p, j): the bias of unit j. -/
theorem bias_rows_apply (p : Fin M) (j : Fin N) :
    broadcastInDim ⟨2, ![M, N]⟩ ![0, 1] h2 (broadcastInDim ⟨2, ![1, N]⟩ ![1] h1 b) (ix2 p j) = b (ix1 j) := by
  refine (broadcastInDim_apply _ h2 _ (ix2 p j) (ix2 (0 : Fin 1) j) (fun a => ?_)).trans
    (broadcastInDim_apply _ h1 b (ix2 (0 : Fin 1) j) (ix1 j) (fun a => ?_))
  · match a with
    | ⟨0, _⟩ => show 0 = if (1 : Nat) = 1 then 0 else p.val; rw [if_pos rfl]
    | ⟨1, _⟩ =>
      show j.val = if N = 1 then 0 else j.val
      by_cases hN : N = 1
      · rw [if_pos hN]; have := j.isLt; omega
      · rw [if_neg hN]
  · match a with
    | ⟨0, _⟩ =>
      show j.val = if N = 1 then 0 else j.val
      by_cases hN : N = 1
      · rw [if_pos hN]; have := j.isLt; omega
      · rw [if_neg hN]

include hd

/-- A dot_general plus the broadcast bias, at (p, j): the affine unit j of row p. -/
theorem dot_bias_apply (p : Fin M) (j : Fin N) :
    addf (Host.dotGeneral d prec l w) (broadcastInDim ⟨2, ![M, N]⟩ ![0, 1] h2 (broadcastInDim ⟨2, ![1, N]⟩ ![1] h1 b)) (ix2 p j)
      = affine (fun κ => l (ix2 p κ)) (fun κ j => w (ix2 κ j)) (fun j => b (ix1 j)) j := by
  show FloatOps.dotGeneral d prec .single l w (ix2 p j)
    + broadcastInDim ⟨2, ![M, N]⟩ ![0, 1] h2 (broadcastInDim ⟨2, ![1, N]⟩ ![1] h1 b) (ix2 p j) = _
  rw [PlainDot.dotGeneral_plain d hd, bias_rows_apply b h1 h2]
  rfl

/-- The same layer followed by the maximum with a broadcast scalar constant. -/
theorem dot_bias_max_apply (z : BitVec 32) (h0 : (⟨0, ![]⟩ : Shape).BroadcastsInDim ⟨2, ![M, N]⟩ ![]) (p : Fin M) (j : Fin N) :
    maximumf (addf (Host.dotGeneral d prec l w) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 z)) (ix2 p j)
      = rectified (Ideal.ofBits .f32 z) (fun κ => l (ix2 p κ)) (fun κ j => w (ix2 κ j)) (fun j => b (ix1 j)) j := by
  show max (addf (Host.dotGeneral d prec l w) (broadcastInDim ⟨2, ![M, N]⟩ ![0, 1] h2 (broadcastInDim ⟨2, ![1, N]⟩ ![1] h1 b)) (ix2 p j))
    (broadcastInDim ⟨2, ![M, N]⟩ ![] h0 (constant (F := Ideal) ⟨0, ![]⟩ .f32 z) (ix2 p j)) = _
  rw [dot_bias_apply d hd prec l w b h1 h2 p j, broadcastInDim_scalar_apply]
  rfl

end Host

end Idealize.ShloMosaic.DenseLayer

end
-- ==== Proof.RowNet.lean ====
/-
  The coupling layer, one row at a time.

  A row xr of 512 features is split into an identity half (features 0..255) and a transform half (256..511). A
  network of three rectified affine layers and one plain affine layer maps the identity half to 512 parameters: the
  first 256 are shifts, the last 256 unconstrained scales. The scale of transform feature κ is
  logistic (u κ + 2) + 0.001. The output row keeps the identity half and sends transform feature κ to
  xr (256 + κ) * scale κ + shift κ; the row's log-determinant is the sum over κ of log (scale κ).
  Every output row depends on its own row of x and the weights only, which is what lets a row tile of any height
  be computed independently.
-/
import proofs.«120934_j28260884807682_1_alg».proof.Proof.LibDense

noncomputable section

open scoped BigOperators

namespace Cert.Coupling
open Idealize.ShloMosaic Idealize.ShloMosaic.DenseLayer Idealize.ShloMosaic.ValueIdx

/-- The weights of the network, entry by entry. -/
structure Weights where
  W1 : Fin 256 → Fin 1024 → EReal
  b1 : Fin 1024 → EReal
  W2 : Fin 1024 → Fin 1024 → EReal
  b2 : Fin 1024 → EReal
  W3 : Fin 1024 → Fin 1024 → EReal
  b3 : Fin 1024 → EReal
  W4 : Fin 1024 → Fin 512 → EReal
  b4 : Fin 512 → EReal

/-- Identity feature κ as a feature of the row. -/
abbrev lo (κ : Fin 256) : Fin 512 := ⟨κ.val, Nat.lt_of_lt_of_le κ.isLt (by decide)⟩
/-- Transform feature κ as a feature of the row. -/
abbrev hi (κ : Fin 256) : Fin 512 := ⟨256 + κ.val, by have := κ.isLt; omega⟩

/-- The programs' zero, two and 0.001, as the values of their words. -/
abbrev zeroV : EReal := Ideal.ofBits .f32 0x00000000#32
abbrev twoV : EReal := Ideal.ofBits .f32 0x40000000#32
abbrev epsV : EReal := Ideal.ofBits .f32 0x3A83126F#32

variable (θ : Weights) (xr : Fin 512 → EReal)

/-- The three hidden layers. -/
def hid1 : Fin 1024 → EReal := rectified zeroV (fun κ => xr (lo κ)) θ.W1 θ.b1
def hid2 : Fin 1024 → EReal := rectified zeroV (hid1 θ xr) θ.W2 θ.b2
def hid3 : Fin 1024 → EReal := rectified zeroV (hid2 θ xr) θ.W3 θ.b3
/-- The 512 parameters: shifts, then unconstrained scales. -/
def params : Fin 512 → EReal := affine (hid3 θ xr) θ.W4 θ.b4
/-- The scale of transform feature κ. -/
def scale (κ : Fin 256) : EReal := Ideal.logistic (params θ xr (hi κ) + twoV) + epsV
/-- The transformed feature κ. -/
def moved (κ : Fin 256) : EReal := xr (hi κ) * scale θ xr κ + params θ xr (lo κ)
/-- The output row: identity features kept, transform features moved. -/
def outRow (q : Fin 512) : EReal :=
  if h : q.val < 256 then xr q else moved θ xr ⟨q.val - 256, by have := q.isLt; omega⟩
/-- The row's log-determinant. -/
def logDet : EReal := ∑ κ : Fin 256, Ideal.log (scale θ xr κ)

/-- The output row at an identity feature. -/
theorem outRow_lo (κ : Fin 256) : outRow θ xr (lo κ) = xr (lo κ) := by
  unfold outRow
  rw [dif_pos (show (lo κ).val < 256 from κ.isLt)]

/-- The output row at a transform feature. -/
theorem outRow_hi (κ : Fin 256) : outRow θ xr (hi κ) = moved θ xr κ := by
  unfold outRow
  rw [dif_neg (show ¬(hi κ).val < 256 from by show ¬(256 + κ.val < 256); omega)]
  refine congrArg (moved θ xr) (Fin.ext ?_)
  show 256 + κ.val - 256 = κ.val
  omega

/-! ## The layer on whole arrays -/

/-- The weights as the argument arrays hold them. -/
def weightsOf (a1 : FVec Ideal ⟨2, ![256, 1024]⟩ .f32) (a2 : FVec Ideal ⟨1, ![1024]⟩ .f32)
    (a3 : FVec Ideal ⟨2, ![1024, 1024]⟩ .f32) (a4 : FVec Ideal ⟨1, ![1024]⟩ .f32)
    (a5 : FVec Ideal ⟨2, ![1024, 1024]⟩ .f32) (a6 : FVec Ideal ⟨1, ![1024]⟩ .f32)
    (a7 : FVec Ideal ⟨2, ![1024, 512]⟩ .f32) (a8 : FVec Ideal ⟨1, ![512]⟩ .f32) : Weights where
  W1 κ j := a1 (ix2 κ j)
  b1 j := a2 (ix1 j)
  W2 κ j := a3 (ix2 κ j)
  b2 j := a4 (ix1 j)
  W3 κ j := a5 (ix2 κ j)
  b3 j := a6 (ix1 j)
  W4 κ j := a7 (ix2 κ j)
  b4 j := a8 (ix1 j)

section Arrays
variable (a0 : FVec Ideal ⟨2, ![65536, 512]⟩ .f32) (a1 : FVec Ideal ⟨2, ![256, 1024]⟩ .f32) (a2 : FVec Ideal ⟨1, ![1024]⟩ .f32)
  (a3 : FVec Ideal ⟨2, ![1024, 1024]⟩ .f32) (a4 : FVec Ideal ⟨1, ![1024]⟩ .f32)
  (a5 : FVec Ideal ⟨2, ![1024, 1024]⟩ .f32) (a6 : FVec Ideal ⟨1, ![1024]⟩ .f32)
  (a7 : FVec Ideal ⟨2, ![1024, 512]⟩ .f32) (a8 : FVec Ideal ⟨1, ![512]⟩ .f32)

/-- Row r of x. -/
abbrev rowOf (r : Fin 65536) : Fin 512 → EReal := fun k => a0 (ix2 r k)

/-- The outputs of all 65536 rows: entry (r, q) is feature q of the output row of row r. -/
def outArr : FVec Ideal ⟨2, ![65536, 512]⟩ .f32 :=
  fun i => outRow (weightsOf a1 a2 a3 a4 a5 a6 a7 a8) (rowOf a0 (i 0)) (i 1)

/-- The log-determinants of all 65536 rows. -/
def ladArr : FVec Ideal ⟨1, ![65536]⟩ .f32 :=
  fun i => logDet (weightsOf a1 a2 a3 a4 a5 a6 a7 a8) (rowOf a0 (i 0))

end Arrays

end Cert.Coupling

end
-- ==== Proof.LibRowSum.lean ====
/-
  Row sums of a matrix, and the column form of a vector, read at an index.

  At the extended reals the accelerator's reduction of an [a, b] array over its second axis, read at row p, is the
  sum over k of the entries (p, k); the host's reduce with an add body is its initial value plus the same sum. A vector
  [a] reshaped to a column [a, 1] holds at (p, 0) the vector's entry p, and a column reshaped to a vector holds at p
  the column's entry (p, 0).
-/
import Idealize.ShloMosaic.PureOps.Ideal.Laws
import Idealize.ShloMosaic.Lib.ValueIdx
import Idealize.ShloMosaic.Lib.Pipeline.Value
import Idealize.ShloMosaic.Lib.IdealHost

noncomputable section

open scoped BigOperators

namespace Idealize.ShloMosaic.RowSum
open Idealize.ShloMosaic Idealize.ShloMosaic.ValueIdx

/-- A vector as a column: entry (p, 0) of the column is entry p of the vector. -/
theorem shapeCast_column_apply {α : Type} {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_one, Shape.rowMajor_val_two]
    show p.val = p.val * 1 + 0
    omega)

/-- A column as a vector: entry p of the vector is entry (p, 0) of the column. -/
theorem shapeCast_uncolumn_apply {α : Type} {a : Nat} (v : (⟨2, ![a, 1]⟩ : Shape).Idx → α)
    (h : (⟨2, ![a, 1]⟩ : Shape).ShapeCasts ⟨1, ![a]⟩) (p : Fin a) :
    shapeCast ⟨1, ![a]⟩ v h (ix1 p) = v (ix2 p (0 : Fin 1)) :=
  shapeCast_apply v h _ _ (by
    rw [Shape.rowMajor_val_one, Shape.rowMajor_val_two]
    show p.val * 1 + 0 = p.val
    omega)

/-- The accelerator's sum over the second axis, at row p. -/
theorem multiReduction_row_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl (fun k _ => congrArg src ?_)
  funext ax
  match ax with
  | ⟨0, _⟩ => rfl
  | ⟨1, _⟩ => rfl

/-- The host's sum over the second axis, at row p: the initial value plus the sum. -/
theorem hostReduceAdd_row_apply {a b : Nat} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  refine (hostReduceAdd_apply x init h' hu (ix1 p)).trans ?_
  refine (Ideal.hostReduceAdd_single h' h x _ (ix1 p)).trans ?_
  refine congrArg (init (Shape.Idx.first hu) + ·) ?_
  refine Finset.sum_congr rfl (fun k _ => congrArg x ?_)
  funext ax
  match ax with
  | ⟨0, _⟩ => rfl
  | ⟨1, _⟩ => rfl

end Idealize.ShloMosaic.RowSum

end
-- ==== Proof.KernelRows.lean ====
/-
  The kernel body's values, read at an index.

  The body works on one tile of 512 rows of x and on the whole weight arrays. Each of its values at row p is the row
  network (RowNet) of row p of the tile: the three rectified layers (narrowing to the matrix unit's input format is
  the identity at the extended reals), the parameters, the scale, the moved transform half, and the sum over the
  256 logarithms of the scales.
-/
import proofs.«120934_j28260884807682_1_alg».proof.Proof.Gen.KernelIdeal.Skeleton
import proofs.«120934_j28260884807682_1_alg».proof.Proof.RowNet
import proofs.«120934_j28260884807682_1_alg».proof.Proof.LibRowSum

noncomputable section

open scoped BigOperators

namespace Cert.Coupling.Kernel
open Idealize.ShloMosaic Idealize.ShloMosaic.ValueIdx Idealize.ShloMosaic.DenseLayer
open Cert.KernelIdeal Cert.KernelIdeal.Gen Cert.Coupling

/-- The network's weights as the body finds them in its staging buffers: the weight matrices whole, each bias as one row. -/
def tileWeights (x1 : FVec Ideal S256x1024 .bf16) (x2 : FVec Ideal S1x1024 .f32) (x3 : FVec Ideal S1024x1024 .bf16)
    (x4 : FVec Ideal S1x1024 .f32) (x5 : FVec Ideal S1024x1024 .bf16) (x6 : FVec Ideal S1x1024 .f32)
    (x7 : FVec Ideal S1024x512 .bf16) (x8 : FVec Ideal S1x512 .f32) : Weights where
  W1 κ j := x1 (ix2 κ j)
  b1 j := x2 (ix2 (0 : Fin 1) j)
  W2 κ j := x3 (ix2 κ j)
  b2 j := x4 (ix2 (0 : Fin 1) j)
  W3 κ j := x5 (ix2 κ j)
  b3 j := x6 (ix2 (0 : Fin 1) j)
  W4 κ j := x7 (ix2 κ j)
  b4 j := x8 (ix2 (0 : Fin 1) j)

/-- The three matrix products of the body contract the left operand's columns with the right operand's rows. -/
theorem plain1 : PlainDot.IsPlain dot_S512x256_S256x1024_S512x1024_1_0_0_1_n_n := ⟨rfl, rfl, rfl, rfl, rfl, rfl⟩
theorem plain2 : PlainDot.IsPlain dot_S512x1024_S1024x1024_S512x1024_1_0_0_1_n_n := ⟨rfl, rfl, rfl, rfl, rfl, rfl⟩
theorem plain4 : PlainDot.IsPlain dot_S512x1024_S1024x512_S512x512_1_0_0_1_n_n := ⟨rfl, rfl, rfl, rfl, rfl, rfl⟩

variable (x0 : FVec Ideal S512x512 .f32) (x1 : FVec Ideal S256x1024 .bf16) (x2 : FVec Ideal S1x1024 .f32)
  (x3 : FVec Ideal S1024x1024 .bf16) (x4 : FVec Ideal S1x1024 .f32) (x5 : FVec Ideal S1024x1024 .bf16)
  (x6 : FVec Ideal S1x1024 .f32) (x7 : FVec Ideal S1024x512 .bf16) (x8 : FVec Ideal S1x512 .f32)

/-- Row p of the tile. -/
abbrev tileRow (p : Fin 512) : Fin 512 → EReal := fun k => x0 (ix2 p k)

/-- The identity half of the tile. -/
theorem identity_apply (p : Fin 512) (κ : Fin 256) : k0_pay5 (F := Ideal) x0 (ix2 p κ) = x0 (ix2 p (lo κ)) := by
  unfold k0_pay5
  exact slice2_axis1_apply 0 x0 _ p κ (lo κ) (Nat.zero_add _).symm

/-- The transform half of the tile. -/
theorem transform_apply (p : Fin 512) (κ : Fin 256) : k0_pay6 (F := Ideal) x0 (ix2 p κ) = x0 (ix2 p (hi κ)) := by
  unfold k0_pay6
  exact slice2_axis1_apply 256 x0 _ p κ (hi κ) rfl

/-- The third hidden layer of row p. -/
theorem hidden_apply (p : Fin 512) (j : Fin 1024) :
    k0_pay7 (F := Ideal) x0 x1 x2 x3 x4 x5 x6 (ix2 p j) = hid3 (tileWeights x1 x2 x3 x4 x5 x6 x7 x8) (tileRow x0 p) j := by
  unfold k0_pay7
  simp only [shapeCast_self]
  rw [truncf_apply]
  refine (matmul_bias_max_apply _ plain2 none _ x5 x6 _ 0x00000000#32 p j).trans ?_
  refine rectified_congr _ (fun κ₃ => ?_) _ _ _
  rw [truncf_apply]
  refine (matmul_bias_max_apply _ plain2 none _ x3 x4 _ 0x00000000#32 p κ₃).trans ?_
  refine rectified_congr _ (fun κ₂ => ?_) _ _ _
  rw [truncf_apply]
  refine (matmul_bias_max_apply _ plain1 none _ x1 x2 _ 0x00000000#32 p κ₂).trans ?_
  refine rectified_congr _ (fun κ₁ => ?_) _ _ _
  rw [truncf_apply]
  exact identity_apply x0 p κ₁

/-- The parameters of row p. -/
theorem params_apply (p : Fin 512) (q : Fin 512) :
    k0_pay1 (F := Ideal) (k0_pay7 x0 x1 x2 x3 x4 x5 x6) (k0_pay8 x7) (constant S512x512 .f32 0x00000000#32) x8 (ix2 p q)
      = params (tileWeights x1 x2 x3 x4 x5 x6 x7 x8) (tileRow x0 p) q := by
  unfold k0_pay1 k0_pay8
  simp only [shapeCast_self]
  refine (matmul_bias_apply _ plain4 none _ x7 x8 _ p q).trans ?_
  exact affine_congr (fun κ => hidden_apply x0 x1 x2 x3 x4 x5 x6 x7 x8 p κ) _ _ _

/-- The scale of transform feature κ of row p. -/
theorem scale_apply (p : Fin 512) (κ : Fin 256) :
    k0_pay2 (F := Ideal) (k0_pay7 x0 x1 x2 x3 x4 x5 x6) (k0_pay8 x7) (constant S512x512 .f32 0x00000000#32) x8 (ix2 p κ)
      = scale (tileWeights x1 x2 x3 x4 x5 x6 x7 x8) (tileRow x0 p) κ := by
  unfold k0_pay2 scale
  rw [addf_apply, logistic_apply, addf_apply, broadcast_apply, broadcast_apply, scalar_ofBits, scalar_ofBits,
    slice2_axis1_apply 256 _ _ p κ (hi κ) rfl, params_apply]

/-- The moved transform feature κ of row p. -/
theorem moved_apply (p : Fin 512) (κ : Fin 256) :
    k0_pay3 (F := Ideal) (k0_pay6 x0) (k0_pay7 x0 x1 x2 x3 x4 x5 x6) (k0_pay8 x7) (constant S512x512 .f32 0x00000000#32) x8 (ix2 p κ)
      = moved (tileWeights x1 x2 x3 x4 x5 x6 x7 x8) (tileRow x0 p) κ := by
  unfold k0_pay3 moved
  rw [addf_apply, mulf_apply, transform_apply, scale_apply, slice2_axis1_apply 0 _ _ p κ (lo κ) (Nat.zero_add _).symm,
    params_apply]

/-- The log-determinant of row p, as the one entry of row p of the column the body stores. -/
theorem logDet_apply (p : Fin 512) :
    k0_pay4 (F := Ideal) (k0_pay7 x0 x1 x2 x3 x4 x5 x6) (k0_pay8 x7) (constant S512x512 .f32 0x00000000#32) x8 (ix2 p (0 : Fin 1))
      = logDet (tileWeights x1 x2 x3 x4 x5 x6 x7 x8) (tileRow x0 p) := by
  unfold k0_pay4 logDet
  refine (RowSum.shapeCast_column_apply _ _ p).trans ?_
  refine (RowSum.multiReduction_row_apply _ _ _ _ p).trans ?_
  refine Finset.sum_congr rfl (fun κ _ => ?_)
  rw [log_apply, scale_apply]

end Cert.Coupling.Kernel

end
-- ==== Proof.KernelArrays.lean ====
/-
  From the tiles to the arrays.

  Grid point t of the kernel works on rows 512 t .. 512 t + 511 of x and on the whole weight arrays, which the host
  lines before the launch only narrow (the identity at the extended reals) or reshape to one row. What the point
  leaves in its two output buffers is, row by row, the output row and the log-determinant of its rows of x
  (KernelRows); the 128 points' blocks tile both result arrays, so the arrays end holding the outputs and the
  log-determinants of all 65536 rows (RowNet's outArr and ladArr), and the host line after the launch reshapes the
  column of log-determinants to a vector.
-/
import proofs.«120934_j28260884807682_1_alg».proof.Proof.Gen.KernelIdeal.Frame
import proofs.«120934_j28260884807682_1_alg».proof.Proof.KernelRows
import Idealize.ShloMosaic.Lib.Pipeline.Value
import Idealize.ShloMosaic.Lib.StableHlo.Run
import Idealize.ShloMosaic.Lib.ValueLayout

noncomputable section

open scoped BigOperators

namespace Cert.Coupling.Kernel
open Idealize.ShloMosaic Idealize.ShloMosaic.TcCoe Idealize.SL.Sem Idealize.ShloMosaic.ValueIdx Idealize.ShloMosaic.DenseLayer
open Idealize.ShloMosaic.Pipeline (Dat)
open Cert.KernelIdeal Cert.KernelIdeal.Gen Cert.Coupling

theorem hz : (![0, 0] : Fin 2 → Nat) = fun _ => 0 := funext fun a => by fin_cases a <;> rfl

/-! ## One tile's output buffers -/

section Tile
variable (x0 : FVec Ideal S512x512 .f32) (x1 : FVec Ideal S256x1024 .bf16) (x2 : FVec Ideal S1x1024 .f32)
  (x3 : FVec Ideal S1024x1024 .bf16) (x4 : FVec Ideal S1x1024 .f32) (x5 : FVec Ideal S1024x1024 .bf16)
  (x6 : FVec Ideal S1x1024 .f32) (x7 : FVec Ideal S1024x512 .bf16) (x8 : FVec Ideal S1x512 .f32)

/-- The store of the moved half lands on the transform features. -/
theorem emb_hi (p : Fin 512) (κ : Fin 256) : r0_7.emb (ix2 p κ) = ix2 p (hi κ) := by
  funext a
  apply Fin.ext
  match a with
  | ⟨0, _⟩ => show 0 + 1 * p.val = p.val; omega
  | ⟨1, _⟩ => show 256 + 1 * κ.val = 256 + κ.val; omega

/-- The store of the identity half lands on the identity features. -/
theorem emb_lo (p : Fin 512) (κ : Fin 256) : r0_6.emb (ix2 p κ) = ix2 p (lo κ) := by
  funext a
  apply Fin.ext
  match a with
  | ⟨0, _⟩ => show 0 + 1 * p.val = p.val; omega
  | ⟨1, _⟩ => show 0 + 1 * κ.val = κ.val; omega

/-- The tile's output buffer at (p, q): feature q of the output row of the tile's row p. -/
theorem outTile_apply (p q : Fin 512) :
    out0_9 (F := Ideal) x0 x1 x2 x3 x4 x5 x6 x7 x8 (ix2 p q)
      = outRow (tileWeights x1 x2 x3 x4 x5 x6 x7 x8) (tileRow x0 p) q := by
  unfold out0_9
  simp only [View.ld_unit_zero (S := S512x512) hz, View.ld_unit_zero (S := S256x1024) hz, View.ld_unit_zero (S := S1x1024) hz,
    View.ld_unit_zero (S := S1024x1024) hz, View.ld_unit_zero (S := S1024x512) hz, View.ld_unit_zero (S := S1x512) hz]
  refine View.canon_apply_of_pieces (Val := Elt Ideal)
    (fun y : S512x512.Idx => outRow (tileWeights x1 x2 x3 x4 x5 x6 x7 x8) (tileRow x0 (y 0)) (y 1)) _ ?_ (ix2 p q) (cover0_9 _ _ _)
  intro pc hpc x
  simp only [List.mem_cons, List.mem_nil_iff, or_false] at hpc
  rcases hpc with rfl | rfl
  · obtain ⟨p', κ, rfl⟩ : ∃ (p' : Fin 512) (κ : Fin 256), x = ix2 p' κ := ⟨x 0, x 1, eq_ix2 x⟩
    show _ = outRow _ (tileRow x0 ((r0_7.emb (ix2 p' κ)) 0)) ((r0_7.emb (ix2 p' κ)) 1)
    rw [emb_hi]
    exact (moved_apply x0 x1 x2 x3 x4 x5 x6 x7 x8 p' κ).trans (outRow_hi (tileWeights x1 x2 x3 x4 x5 x6 x7 x8) (tileRow x0 p') κ).symm
  · obtain ⟨p', κ, rfl⟩ : ∃ (p' : Fin 512) (κ : Fin 256), x = ix2 p' κ := ⟨x 0, x 1, eq_ix2 x⟩
    show _ = outRow _ (tileRow x0 ((r0_6.emb (ix2 p' κ)) 0)) ((r0_6.emb (ix2 p' κ)) 1)
    rw [emb_lo]
    exact (identity_apply x0 p' κ).trans (outRow_lo (tileWeights x1 x2 x3 x4 x5 x6 x7 x8) (tileRow x0 p') κ).symm

/-- The tile's log-determinant buffer at (p, 0): the log-determinant of the tile's row p. -/
theorem ladTile_apply (p : Fin 512) :
    out0_10 (F := Ideal) x0 x1 x2 x3 x4 x5 x6 x7 x8 (ix2 p (0 : Fin 1))
      = logDet (tileWeights x1 x2 x3 x4 x5 x6 x7 x8) (tileRow x0 p) := by
  unfold out0_10
  simp only [View.ld_unit_zero (S := S512x512) hz, View.ld_unit_zero (S := S256x1024) hz, View.ld_unit_zero (S := S1x1024) hz,
    View.ld_unit_zero (S := S1024x1024) hz, View.ld_unit_zero (S := S1024x512) hz, View.ld_unit_zero (S := S1x512) hz]
  rw [View.canon_unit_zero hz]
  exact logDet_apply x0 x1 x2 x3 x4 x5 x6 x7 x8 p

end Tile

/-! ## The arrays as the region finds them -/

section Arrays
variable (m : (ℓ : Loc nD τ sig) → Buf (Elt Ideal) ℓ) (ρ : Dev nD → PrngReg)

/-- The argument arrays at launch. -/
abbrev a0 (c : Dev nD) : FVec Ideal S65536x512 .f32 := m ((c : Thread nD τ).loc main_arg0)
abbrev a1 (c : Dev nD) : FVec Ideal S256x1024 .f32 := m ((c : Thread nD τ).loc main_arg1)
abbrev a2 (c : Dev nD) : FVec Ideal S1024 .f32 := m ((c : Thread nD τ).loc main_arg2)
abbrev a3 (c : Dev nD) : FVec Ideal S1024x1024 .f32 := m ((c : Thread nD τ).loc main_arg3)
abbrev a4 (c : Dev nD) : FVec Ideal S1024 .f32 := m ((c : Thread nD τ).loc main_arg4)
abbrev a5 (c : Dev nD) : FVec Ideal S1024x1024 .f32 := m ((c : Thread nD τ).loc main_arg5)
abbrev a6 (c : Dev nD) : FVec Ideal S1024 .f32 := m ((c : Thread nD τ).loc main_arg6)
abbrev a7 (c : Dev nD) : FVec Ideal S1024x512 .f32 := m ((c : Thread nD τ).loc main_arg7)
abbrev a8 (c : Dev nD) : FVec Ideal S512 .f32 := m ((c : Thread nD τ).loc main_arg8)

/-- The host lines before the launch: each weight matrix narrowed, each bias reshaped to one row. -/
theorem narrowed1 (c : Dev nD) : (V m c main_v0 : FVec Ideal S256x1024 .bf16) = truncf .bf16 (a1 m c) bitsLt_bf16_f32 := by
  show StableHlo.after hostOps0 (fun b => m (c, b)) (Proc.devRef .tc main_v0) = _
  after_results
theorem narrowed2 (c : Dev nD) : (V m c main_v1 : FVec Ideal S1024x1024 .bf16) = truncf .bf16 (a3 m c) bitsLt_bf16_f32 := by
  show StableHlo.after hostOps0 (fun b => m (c, b)) (Proc.devRef .tc main_v1) = _
  after_results
theorem narrowed3 (c : Dev nD) : (V m c main_v2 : FVec Ideal S1024x1024 .bf16) = truncf .bf16 (a5 m c) bitsLt_bf16_f32 := by
  show StableHlo.after hostOps0 (fun b => m (c, b)) (Proc.devRef .tc main_v2) = _
  after_results
theorem narrowed4 (c : Dev nD) : (V m c main_v3 : FVec Ideal S1024x512 .bf16) = truncf .bf16 (a7 m c) bitsLt_bf16_f32 := by
  show StableHlo.after hostOps0 (fun b => m (c, b)) (Proc.devRef .tc main_v3) = _
  after_results
theorem biasRow1 (c : Dev nD) : (V m c main_v4 : FVec Ideal S1x1024 .f32) = shapeCast S1x1024 (a2 m c) shapeCasts_S1024_S1x1024 := by
  show StableHlo.after hostOps0 (fun b => m (c, b)) (Proc.devRef .tc main_v4) = _
  after_results
  rfl
theorem biasRow2 (c : Dev nD) : (V m c main_v5 : FVec Ideal S1x1024 .f32) = shapeCast S1x1024 (a4 m c) shapeCasts_S1024_S1x1024 := by
  show StableHlo.after hostOps0 (fun b => m (c, b)) (Proc.devRef .tc main_v5) = _
  after_results
  rfl
theorem biasRow3 (c : Dev nD) : (V m c main_v6 : FVec Ideal S1x1024 .f32) = shapeCast S1x1024 (a6 m c) shapeCasts_S1024_S1x1024 := by
  show StableHlo.after hostOps0 (fun b => m (c, b)) (Proc.devRef .tc main_v6) = _
  after_results
  rfl
theorem biasRow4 (c : Dev nD) : (V m c main_v7 : FVec Ideal S1x512 .f32) = shapeCast S1x512 (a8 m c) shapeCasts_S512_S1x512 := by
  show StableHlo.after hostOps0 (fun b => m (c, b)) (Proc.devRef .tc main_v7) = _
  after_results
  rfl

/-! ## The windows' blocks -/

/-- The printed index maps, decided over the grid: the x window and the two output windows move one row tile per point,
    the weight and bias windows stay at block (0, 0). -/
theorem idx_rows : ∀ t : Fin cfg0.N, win0_0.index t (0 : Fin 2) = t.val ∧ win0_0.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)
theorem idx_whole1 : ∀ t : Fin cfg0.N, win0_1.index t (0 : Fin 2) = 0 ∧ win0_1.index t (1 : Fin 2) = 0 :=
  (by decide +kernel : ∀ t : Fin grid0.N, _)
theorem idx_whole2 : ∀ t : Fin cfg0.N, win0_2.index t (0 : Fin 2) = 0 ∧ win0_2.index t (1 : Fin 2) = 0 :=
  (by decide +kernel : ∀ t : Fin grid0.N, _)
theorem idx_whole3 : ∀ t : Fin cfg0.N, win0_3.index t (0 : Fin 2) = 0 ∧ win0_3.index t (1 : Fin 2) = 0 :=
  (by decide +kernel : ∀ t : Fin grid0.N, _)
theorem idx_whole4 : ∀ t : Fin cfg0.N, win0_4.index t (0 : Fin 2) = 0 ∧ win0_4.index t (1 : Fin 2) = 0 :=
  (by decide +kernel : ∀ t : Fin grid0.N, _)
theorem idx_whole5 : ∀ t : Fin cfg0.N, win0_5.index t (0 : Fin 2) = 0 ∧ win0_5.index t (1 : Fin 2) = 0 :=
  (by decide +kernel : ∀ t : Fin grid0.N, _)
theorem idx_whole6 : ∀ t : Fin cfg0.N, win0_6.index t (0 : Fin 2) = 0 ∧ win0_6.index t (1 : Fin 2) = 0 :=
  (by decide +kernel : ∀ t : Fin grid0.N, _)
theorem idx_whole7 : ∀ t : Fin cfg0.N, win0_7.index t (0 : Fin 2) = 0 ∧ win0_7.index t (1 : Fin 2) = 0 :=
  (by decide +kernel : ∀ t : Fin grid0.N, _)
theorem idx_whole8 : ∀ t : Fin cfg0.N, win0_8.index t (0 : Fin 2) = 0 ∧ win0_8.index t (1 : Fin 2) = 0 :=
  (by decide +kernel : ∀ t : Fin grid0.N, _)

/-- The row of x that row p of point t's tile is. -/
abbrev rowAt (t : Fin cfg0.N) (p : Fin 512) : Fin 65536 :=
  ⟨512 * t.val + p.val, by
    have ht : t.val < 128 := Nat.lt_of_lt_of_eq t.isLt N_0
    have hp := p.isLt
    omega⟩

/-- Point t's tile of x is rows 512 t .. 512 t + 511 of x. -/
theorem xTile_apply (c : Dev nD) (t : Fin cfg0.N) (p k : Fin 512) :
    (iblk m c 0 t : FVec Ideal S512x512 .f32) (ix2 p k) = a0 m c (ix2 (rowAt t p) k) := by
  obtain ⟨e0, e1, -⟩ := idx_rows t
  unfold iblk
  rw [View.read_apply]
  show (V m c main_arg0 : FVec Ideal S65536x512 .f32) _ = _
  rw [V_main_arg0]
  show a0 m c _ = a0 m c _
  congr 1
  funext a
  apply Fin.ext
  match a with
  | ⟨0, _⟩ => show win0_0.index t (0 : Fin 2) * 512 + 1 * p.val = 512 * t.val + p.val; rw [e0]; omega
  | ⟨1, _⟩ => show win0_0.index t (1 : Fin 2) * 512 + 1 * k.val = k.val; rw [e1]; omega

/-- Window 1's block at every point is its whole array. -/
theorem whole1 (c : Dev nD) (t : Fin cfg0.N) (y : S256x1024.Idx) :
    (iblk m c 1 t : FVec Ideal S256x1024 .bf16) y = (V m c main_v0 : FVec Ideal S256x1024 .bf16) y := by
  obtain ⟨e0, e1⟩ := idx_whole1 t
  unfold iblk
  rw [View.read_apply]
  show (V m c main_v0 : FVec Ideal S256x1024 .bf16) _ = _
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 1024 + 1 * (y 1).val = (y 1).val; rw [e1]; omega

/-- Window 2's block at every point is its whole array. -/
theorem whole2 (c : Dev nD) (t : Fin cfg0.N) (y : S1x1024.Idx) :
    (iblk m c 2 t : FVec Ideal S1x1024 .f32) y = (V m c main_v4 : FVec Ideal S1x1024 .f32) y := by
  obtain ⟨e0, e1⟩ := idx_whole2 t
  unfold iblk
  rw [View.read_apply]
  show (V m c main_v4 : FVec Ideal S1x1024 .f32) _ = _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 1024 + 1 * (y 1).val = (y 1).val; rw [e1]; omega

/-- Window 3's block at every point is its whole array. -/
theorem whole3 (c : Dev nD) (t : Fin cfg0.N) (y : S1024x1024.Idx) :
    (iblk m c 3 t : FVec Ideal S1024x1024 .bf16) y = (V m c main_v1 : FVec Ideal S1024x1024 .bf16) y := by
  obtain ⟨e0, e1⟩ := idx_whole3 t
  unfold iblk
  rw [View.read_apply]
  show (V m c main_v1 : FVec Ideal S1024x1024 .bf16) _ = _
  congr 1
  funext a
  apply Fin.ext
  match a with
  | ⟨0, _⟩ => show win0_3.index t (0 : Fin 2) * 1024 + 1 * (y 0).val = (y 0).val; rw [e0]; omega
  | ⟨1, _⟩ => show win0_3.index t (1 : Fin 2) * 1024 + 1 * (y 1).val = (y 1).val; rw [e1]; omega

/-- Window 4's block at every point is its whole array. -/
theorem whole4 (c : Dev nD) (t : Fin cfg0.N) (y : S1x1024.Idx) :
    (iblk m c 4 t : FVec Ideal S1x1024 .f32) y = (V m c main_v5 : FVec Ideal S1x1024 .f32) y := by
  obtain ⟨e0, e1⟩ := idx_whole4 t
  unfold iblk
  rw [View.read_apply]
  show (V m c main_v5 : FVec Ideal S1x1024 .f32) _ = _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 1024 + 1 * (y 1).val = (y 1).val; rw [e1]; omega

/-- Window 5's block at every point is its whole array. -/
theorem whole5 (c : Dev nD) (t : Fin cfg0.N) (y : S1024x1024.Idx) :
    (iblk m c 5 t : FVec Ideal S1024x1024 .bf16) y = (V m c main_v2 : FVec Ideal S1024x1024 .bf16) y := by
  obtain ⟨e0, e1⟩ := idx_whole5 t
  unfold iblk
  rw [View.read_apply]
  show (V m c main_v2 : FVec Ideal S1024x1024 .bf16) _ = _
  congr 1
  funext a
  apply Fin.ext
  match a with
  | ⟨0, _⟩ => show win0_5.index t (0 : Fin 2) * 1024 + 1 * (y 0).val = (y 0).val; rw [e0]; omega
  | ⟨1, _⟩ => show win0_5.index t (1 : Fin 2) * 1024 + 1 * (y 1).val = (y 1).val; rw [e1]; omega

/-- Window 6's block at every point is its whole array. -/
theorem whole6 (c : Dev nD) (t : Fin cfg0.N) (y : S1x1024.Idx) :
    (iblk m c 6 t : FVec Ideal S1x1024 .f32) y = (V m c main_v6 : FVec Ideal S1x1024 .f32) y := by
  obtain ⟨e0, e1⟩ := idx_whole6 t
  unfold iblk
  rw [View.read_apply]
  show (V m c main_v6 : FVec Ideal S1x1024 .f32) _ = _
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 1024 + 1 * (y 1).val = (y 1).val; rw [e1]; omega

/-- Window 7's block at every point is its whole array. -/
theorem whole7 (c : Dev nD) (t : Fin cfg0.N) (y : S1024x512.Idx) :
    (iblk m c 7 t : FVec Ideal S1024x512 .bf16) y = (V m c main_v3 : FVec Ideal S1024x512 .bf16) y := by
  obtain ⟨e0, e1⟩ := idx_whole7 t
  unfold iblk
  rw [View.read_apply]
  show (V m c main_v3 : FVec Ideal S1024x512 .bf16) _ = _
  congr 1
  funext a
  apply Fin.ext
  match a with
  | ⟨0, _⟩ => show win0_7.index t (0 : Fin 2) * 1024 + 1 * (y 0).val = (y 0).val; rw [e0]; omega
  | ⟨1, _⟩ => show win0_7.index t (1 : Fin 2) * 512 + 1 * (y 1).val = (y 1).val; rw [e1]; omega

/-- Window 8's block at every point is its whole array. -/
theorem whole8 (c : Dev nD) (t : Fin cfg0.N) (y : S1x512.Idx) :
    (iblk m c 8 t : FVec Ideal S1x512 .f32) y = (V m c main_v7 : FVec Ideal S1x512 .f32) y := by
  obtain ⟨e0, e1⟩ := idx_whole8 t
  unfold iblk
  rw [View.read_apply]
  show (V m c main_v7 : FVec Ideal S1x512 .f32) _ = _
  congr 1
  funext a
  apply Fin.ext
  match a with
  | ⟨0, _⟩ => show win0_8.index t (0 : Fin 2) * 1 + 1 * (y 0).val = (y 0).val; rw [e0]; omega
  | ⟨1, _⟩ => show win0_8.index t (1 : Fin 2) * 512 + 1 * (y 1).val = (y 1).val; rw [e1]; omega

/-- At every point the body finds the network's weights as the argument arrays hold them. -/
theorem tileWeights_eq (c : Dev nD) (t : Fin cfg0.N) :
    tileWeights (iblk m c 1 t) (iblk m c 2 t) (iblk m c 3 t) (iblk m c 4 t) (iblk m c 5 t) (iblk m c 6 t) (iblk m c 7 t) (iblk m c 8 t)
      = weightsOf (a1 m c) (a2 m c) (a3 m c) (a4 m c) (a5 m c) (a6 m c) (a7 m c) (a8 m c) := by
  unfold tileWeights weightsOf
  congr 1
  · funext κ j; rw [whole1, narrowed1, truncf_apply]
  · funext j; rw [whole2, biasRow1]; exact shapeCast_a_1a_apply _ _ 0 j
  · funext κ j; rw [whole3, narrowed2, truncf_apply]
  · funext j; rw [whole4, biasRow2]; exact shapeCast_a_1a_apply _ _ 0 j
  · funext κ j; rw [whole5, narrowed3, truncf_apply]
  · funext j; rw [whole6, biasRow3]; exact shapeCast_a_1a_apply _ _ 0 j
  · funext κ j; rw [whole7, narrowed4, truncf_apply]
  · funext j; rw [whole8, biasRow4]; exact shapeCast_a_1a_apply _ _ 0 j

/-- Row p of point t's tile is row 512 t + p of x. -/
theorem tileRow_eq (c : Dev nD) (t : Fin cfg0.N) (p : Fin 512) :
    tileRow (iblk m c 0 t) p = rowOf (a0 m c) (rowAt t p) :=
  funext fun k => xTile_apply m c t p k

end Arrays

/-! ## What a point writes back, and the arrays after the run -/

section Run
variable (m : (ℓ : Loc nD τ sig) → Buf (Elt Ideal) ℓ) (ρ : Dev nD → PrngReg)

/-- The outputs and the log-determinants of all rows of the launch's x, and the log-determinants as a column. -/
abbrev outK (c : Dev nD) : FVec Ideal S65536x512 .f32 := outArr (a0 m c) (a1 m c) (a2 m c) (a3 m c) (a4 m c) (a5 m c) (a6 m c) (a7 m c) (a8 m c)
abbrev ladK (c : Dev nD) : FVec Ideal S65536 .f32 := ladArr (a0 m c) (a1 m c) (a2 m c) (a3 m c) (a4 m c) (a5 m c) (a6 m c) (a7 m c) (a8 m c)
abbrev ladCol (c : Dev nD) : FVec Ideal S65536x1 .f32 := fun i => ladK m c (ix1 (i 0))

/-- Point t's output block is rows 512 t .. 512 t + 511 of the result. -/
theorem out_emb (t : Fin cfg0.N) (p q : Fin 512) : ((cfg0.win 9).blk t).view.emb (ix2 p q) = ix2 (rowAt t p) q := by
  obtain ⟨-, -, e0, e1, -⟩ := idx_rows t
  funext a
  apply Fin.ext
  match a with
  | ⟨0, _⟩ => show win0_9.index t (0 : Fin 2) * 512 + 1 * p.val = 512 * t.val + p.val; rw [e0]; omega
  | ⟨1, _⟩ => show win0_9.index t (1 : Fin 2) * 512 + 1 * q.val = q.val; rw [e1]; omega

/-- Point t's log-determinant block is rows 512 t .. 512 t + 511 of the column. -/
theorem lad_emb (t : Fin cfg0.N) (p : Fin 512) : ((cfg0.win 10).blk t).view.emb (ix2 p (0 : Fin 1)) = ix2 (rowAt t p) (0 : Fin 1) := by
  obtain ⟨-, -, -, -, e0, e1⟩ := idx_rows t
  funext a
  apply Fin.ext
  match a with
  | ⟨0, _⟩ => show win0_10.index t (0 : Fin 2) * 512 + 1 * p.val = 512 * t.val + p.val; rw [e0]; omega
  | ⟨1, _⟩ => show win0_10.index t (1 : Fin 2) * 1 + 1 * 0 = 0; rw [e1]

/-- WHAT POINT t WRITES BACK to the first result: its block of the outputs of all rows. -/
theorem flushed_out (c : Dev nD) (t : Fin cfg0.N) :
    (dats m 0 c).flushed 9 t = ((cfg0.win 9).blk t).view.read (Elt Ideal) (outK m c) := by
  show (cfg0.win 9).cut (grid0.coords t) ((dats m 0 c).after 9 t) = _
  rw [after0_9]
  funext y
  obtain ⟨p, q, rfl⟩ : ∃ (p q : Fin 512), y = ix2 p q := ⟨y 0, y 1, eq_ix2 y⟩
  show out0_9 (iblk m c 0 t) (iblk m c 1 t) (iblk m c 2 t) (iblk m c 3 t) (iblk m c 4 t) (iblk m c 5 t) (iblk m c 6 t) (iblk m c 7 t) (iblk m c 8 t) (ix2 p q) = outK m c (((cfg0.win 9).blk t).view.emb (ix2 p q))
  rw [out_emb]
  refine (outTile_apply (iblk m c 0 t) (iblk m c 1 t) (iblk m c 2 t) (iblk m c 3 t) (iblk m c 4 t) (iblk m c 5 t) (iblk m c 6 t) (iblk m c 7 t) (iblk m c 8 t) p q).trans ?_
  rw [tileWeights_eq, tileRow_eq]
  rfl

/-- WHAT POINT t WRITES BACK to the second result: its block of the column of log-determinants. -/
theorem flushed_lad (c : Dev nD) (t : Fin cfg0.N) :
    (dats m 0 c).flushed 10 t = ((cfg0.win 10).blk t).view.read (Elt Ideal) (ladCol m c) := by
  show (cfg0.win 10).cut (grid0.coords t) ((dats m 0 c).after 10 t) = _
  rw [after0_10]
  funext y
  obtain ⟨p, q, rfl⟩ : ∃ (p : Fin 512) (q : Fin 1), y = ix2 p q := ⟨y 0, y 1, eq_ix2 y⟩
  obtain rfl : q = 0 := Subsingleton.elim _ _
  show out0_10 (iblk m c 0 t) (iblk m c 1 t) (iblk m c 2 t) (iblk m c 3 t) (iblk m c 4 t) (iblk m c 5 t) (iblk m c 6 t) (iblk m c 7 t) (iblk m c 8 t) (ix2 p (0 : Fin 1)) = ladCol m c (((cfg0.win 10).blk t).view.emb (ix2 p (0 : Fin 1)))
  rw [lad_emb]
  refine (ladTile_apply (iblk m c 0 t) (iblk m c 1 t) (iblk m c 2 t) (iblk m c 3 t) (iblk m c 4 t) (iblk m c 5 t) (iblk m c 6 t) (iblk m c 7 t) (iblk m c 8 t) p).trans ?_
  rw [tileWeights_eq, tileRow_eq]
  rfl

/-- An index of the first result is in point t's block iff each coordinate is in the block's range. -/
theorem mem_out (t : Fin cfg0.N) (i : S65536x512.Idx) :
    i ∈ ((cfg0.win 9).blk t).view.set ↔ ∀ a : Fin 2, win0_9.index t a * S512x512.size a ≤ (i a).val ∧ (i a).val < win0_9.index t a * S512x512.size a + S512x512.size a := by
  show i ∈ ((View.whole main_v8_0).slice (win0_9.rect t)).set ↔ _
  rw [View.set_slice_whole, Rect.mem_set_unit]
  exact Iff.rfl

/-- The same for the column of log-determinants. -/
theorem mem_lad (t : Fin cfg0.N) (i : S65536x1.Idx) :
    i ∈ ((cfg0.win 10).blk t).view.set ↔ ∀ a : Fin 2, win0_10.index t a * S512x1.size a ≤ (i a).val ∧ (i a).val < win0_10.index t a * S512x1.size a + S512x1.size a := by
  show i ∈ ((View.whole main_v8_1).slice (win0_10.rect t)).set ↔ _
  rw [View.set_slice_whole, Rect.mem_set_unit]
  exact Iff.rfl

/-- Row r of the first result is written by point r / 512. -/
theorem cover_out (i : S65536x512.Idx) : ∃ t : Fin cfg0.N, (cfg0.win 9).flush t = true ∧ i ∈ ((cfg0.win 9).blk t).view.set := by
  have h0 : (i 0).val < 65536 := (i 0).isLt
  have h1 : (i 1).val < 512 := (i 1).isLt
  have ht : (i 0).val / 512 < cfg0.N := by rw [show cfg0.N = 128 from N_0]; omega
  obtain ⟨-, -, e0, e1, -⟩ := idx_rows ⟨(i 0).val / 512, ht⟩
  refine ⟨⟨(i 0).val / 512, ht⟩, flush0_9 _, ?_⟩
  rw [mem_out]
  intro a
  match a with
  | ⟨0, _⟩ =>
    show win0_9.index ⟨(i 0).val / 512, ht⟩ (0 : Fin 2) * 512 ≤ (i 0).val ∧ (i 0).val < win0_9.index ⟨(i 0).val / 512, ht⟩ (0 : Fin 2) * 512 + 512
    rw [e0]
    show (i 0).val / 512 * 512 ≤ (i 0).val ∧ (i 0).val < (i 0).val / 512 * 512 + 512
    omega
  | ⟨1, _⟩ =>
    show win0_9.index ⟨(i 0).val / 512, ht⟩ (1 : Fin 2) * 512 ≤ (i 1).val ∧ (i 1).val < win0_9.index ⟨(i 0).val / 512, ht⟩ (1 : Fin 2) * 512 + 512
    rw [e1]
    omega

/-- Row r of the column is written by point r / 512. -/
theorem cover_lad (i : S65536x1.Idx) : ∃ t : Fin cfg0.N, (cfg0.win 10).flush t = true ∧ i ∈ ((cfg0.win 10).blk t).view.set := by
  have h0 : (i 0).val < 65536 := (i 0).isLt
  have h1 : (i 1).val < 1 := (i 1).isLt
  have ht : (i 0).val / 512 < cfg0.N := by rw [show cfg0.N = 128 from N_0]; omega
  obtain ⟨-, -, -, -, e0, e1⟩ := idx_rows ⟨(i 0).val / 512, ht⟩
  refine ⟨⟨(i 0).val / 512, ht⟩, flush0_10 _, ?_⟩
  rw [mem_lad]
  intro a
  match a with
  | ⟨0, _⟩ =>
    show win0_10.index ⟨(i 0).val / 512, ht⟩ (0 : Fin 2) * 512 ≤ (i 0).val ∧ (i 0).val < win0_10.index ⟨(i 0).val / 512, ht⟩ (0 : Fin 2) * 512 + 512
    rw [e0]
    show (i 0).val / 512 * 512 ≤ (i 0).val ∧ (i 0).val < (i 0).val / 512 * 512 + 512
    omega
  | ⟨1, _⟩ =>
    show win0_10.index ⟨(i 0).val / 512, ht⟩ (1 : Fin 2) * 1 ≤ (i 1).val ∧ (i 1).val < win0_10.index ⟨(i 0).val / 512, ht⟩ (1 : Fin 2) * 1 + 1
    rw [e1]
    omega

/-- THE FIRST RESULT ARRAY after the launch: the outputs of all rows. -/
theorem final_out (c : Dev nD) : (dats m 0 c).arrAt 9 cfg0.N = outK m c :=
  (dats m 0 c).arrAt_eq_of_cover 9 (outK m c) (fun t _ => flushed_out m c t) cover_out

/-- THE COLUMN after the launch: the log-determinants of all rows. -/
theorem final_lad (c : Dev nD) : (dats m 0 c).arrAt 10 cfg0.N = ladCol m c :=
  (dats m 0 c).arrAt_eq_of_cover 10 (ladCol m c) (fun t _ => flushed_lad m c t) cover_lad

/-- THE SECOND RESULT: the host line after the launch reshapes the column to the vector of log-determinants. -/
theorem tail_lad (c : Dev nD) : Pipeline.afterTail₀ cfgs (dats m) 0 (V0 m) [hostOps1] c main_v9 = ladK m c := by
  have e : Pipeline.withArrays (cfgs 0).spec c (V0 m c) (fun w => (dats m 0 c).arrAt w (cfgs 0).N) (Proc.devRef .tc main_v8_1)
      = ladCol m c := (Pipeline.withArrays_arr spec0 launch0.win.arr_inj c _ _ 10).trans (final_lad m c)
  unfold Pipeline.afterTail₀
  show StableHlo.after hostOps1 _ (Proc.devRef .tc main_v9) = _
  after_results
  rw [e]
  funext i
  rw [eq_ix1 i]
  exact RowSum.shapeCast_uncolumn_apply (ladCol m c) _ (i 0)

/-- THE RUN, READ: every weakly fair execution ends with the first result at the outputs of all rows, the second at
    their log-determinants, and the arguments as launched. -/
theorem run : θ_run defs (onTc (τ := τ) (main (F := Ideal))) ⟨m, fun _ => 0, ρ⟩ fun r => ∀ c : Dev nD,
      r.2.mem ((c.tc : Thread nD τ).loc main_v8_0) = outK m c
      ∧ r.2.mem ((c.tc : Thread nD τ).loc main_v9) = ladK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).1 9).trans (final_out m c),
      ((h c).2 main_v9 (Pipeline.mem_restRefs_of main_v9 (by decide) (by decide))).trans (tail_lad m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Run

end Cert.Coupling.Kernel

end
-- ==== Proof.RefRows.lean ====
/-
  The reference's values, read at an index.

  The reference computes the coupling layer on all 65536 rows at once. Each stage, read at row r, is the row network
  (RowNet) of row r of x: the host's dot_general plus the broadcast bias is the affine layer, its maximum with the
  broadcast zero the rectifier, the expansion 1 / (1 + exp (-u)) the logistic function, the concatenation along the
  feature axis the output row, and the host's sum from zero the log-determinant.
-/
import proofs.«120934_j28260884807682_1_alg».proof.Proof.Gen.ReferenceIdeal.Read
import proofs.«120934_j28260884807682_1_alg».proof.Proof.RowNet
import proofs.«120934_j28260884807682_1_alg».proof.Proof.LibRowSum

noncomputable section

open scoped BigOperators

namespace Cert.Coupling.Reference
open Idealize.ShloMosaic Idealize.ShloMosaic.ValueIdx Idealize.ShloMosaic.DenseLayer
open Cert.ReferenceIdeal Cert.ReferenceIdeal.Gen Cert.ReferenceIdeal.Read Cert.Coupling

/-- The reference's matrix products contract the left operand's columns with the right operand's rows. -/
theorem plain1 : PlainDot.IsPlain dot_S65536x256_S256x1024_S65536x1024_1_0_0_1_n_n := ⟨rfl, rfl, rfl, rfl, rfl, rfl⟩
theorem plain2 : PlainDot.IsPlain dot_S65536x1024_S1024x1024_S65536x1024_1_0_0_1_n_n := ⟨rfl, rfl, rfl, rfl, rfl, rfl⟩
theorem plain4 : PlainDot.IsPlain dot_S65536x1024_S1024x512_S65536x512_1_0_0_1_n_n := ⟨rfl, rfl, rfl, rfl, rfl, rfl⟩

variable (a0 : FVec Ideal S65536x512 .f32) (a1 : FVec Ideal S256x1024 .f32) (a2 : FVec Ideal S1024 .f32)
  (a3 : FVec Ideal S1024x1024 .f32) (a4 : FVec Ideal S1024 .f32) (a5 : FVec Ideal S1024x1024 .f32)
  (a6 : FVec Ideal S1024 .f32) (a7 : FVec Ideal S1024x512 .f32) (a8 : FVec Ideal S512 .f32)

/-- The identity half of x. -/
theorem identity_apply (r : Fin 65536) (κ : Fin 256) : val_main_v0 (F := Ideal) a0 (ix2 r κ) = a0 (ix2 r (lo κ)) := by
  unfold val_main_v0
  exact slice2_axis1_apply 0 a0 _ r κ (lo κ) (Nat.zero_add _).symm

/-- The transform half of x. -/
theorem transform_apply (r : Fin 65536) (κ : Fin 256) : val_main_v1 (F := Ideal) a0 (ix2 r κ) = a0 (ix2 r (hi κ)) := by
  unfold val_main_v1
  exact slice2_axis1_apply 256 a0 _ r κ (hi κ) rfl

/-- The first hidden layer of row r. -/
theorem hidden1_apply (r : Fin 65536) (j : Fin 1024) :
    val_main_v6 (F := Ideal) a0 a1 a2 (ix2 r j) = hid1 (weightsOf a1 a2 a3 a4 a5 a6 a7 a8) (rowOf a0 r) j := by
  unfold val_main_v6 val_main_v5 val_main_v4 val_main_v3 val_main_v2 val_main_call0_v0 val_main_call0_cst
  refine (dot_bias_max_apply _ plain1 none _ a1 a2 _ _ 0x00000000#32 _ r j).trans ?_
  exact rectified_congr _ (fun κ => identity_apply a0 r κ) _ _ _

/-- The second hidden layer of row r. -/
theorem hidden2_apply (r : Fin 65536) (j : Fin 1024) :
    val_main_v11 (F := Ideal) a0 a1 a2 a3 a4 (ix2 r j) = hid2 (weightsOf a1 a2 a3 a4 a5 a6 a7 a8) (rowOf a0 r) j := by
  unfold val_main_v11 val_main_v10 val_main_v9 val_main_v8 val_main_v7 val_main_call1_v0 val_main_call1_cst
  refine (dot_bias_max_apply _ plain2 none _ a3 a4 _ _ 0x00000000#32 _ r j).trans ?_
  exact rectified_congr _ (fun κ => hidden1_apply a0 a1 a2 a3 a4 a5 a6 a7 a8 r κ) _ _ _

/-- The third hidden layer of row r. -/
theorem hidden3_apply (r : Fin 65536) (j : Fin 1024) :
    val_main_v16 (F := Ideal) a0 a1 a2 a3 a4 a5 a6 (ix2 r j) = hid3 (weightsOf a1 a2 a3 a4 a5 a6 a7 a8) (rowOf a0 r) j := by
  unfold val_main_v16 val_main_v15 val_main_v14 val_main_v13 val_main_v12 val_main_call2_v0 val_main_call2_cst
  refine (dot_bias_max_apply _ plain2 none _ a5 a6 _ _ 0x00000000#32 _ r j).trans ?_
  exact rectified_congr _ (fun κ => hidden2_apply a0 a1 a2 a3 a4 a5 a6 a7 a8 r κ) _ _ _

/-- The parameters of row r. -/
theorem params_apply (r : Fin 65536) (q : Fin 512) :
    val_main_v20 (F := Ideal) a0 a1 a2 a3 a4 a5 a6 a7 a8 (ix2 r q) = params (weightsOf a1 a2 a3 a4 a5 a6 a7 a8) (rowOf a0 r) q := by
  unfold val_main_v20 val_main_v19 val_main_v18 val_main_v17
  refine (dot_bias_apply _ plain4 none _ a7 a8 _ _ r q).trans ?_
  exact affine_congr (fun κ => hidden3_apply a0 a1 a2 a3 a4 a5 a6 a7 a8 r κ) _ _ _

/-- The scale of transform feature κ of row r: the host's 1 / (1 + exp (-u)) is the logistic function. -/
theorem scale_apply (r : Fin 65536) (κ : Fin 256) :
    val_main_v32 (F := Ideal) a0 a1 a2 a3 a4 a5 a6 a7 a8 (ix2 r κ) = scale (weightsOf a1 a2 a3 a4 a5 a6 a7 a8) (rowOf a0 r) κ := by
  unfold val_main_v32 val_main_v31 val_main_cst_2 val_main_v30 val_main_v29 val_main_cst_1 val_main_v28 val_main_v27
    val_main_cst_0 val_main_v26 val_main_v25 val_main_v24 val_main_v23 val_main_cst val_main_v22 scale
  rw [addf_apply, hostDivf_apply, addf_apply, hostExp_apply, hostNegf_apply, addf_apply]
  repeat rw [broadcastInDim_scalar_apply]
  repeat rw [constant_apply]
  rw [slice2_axis1_apply 256 _ _ r κ (hi κ) rfl, params_apply, Ideal.ofBits_one_f32]
  rfl

/-- The moved transform feature κ of row r. -/
theorem moved_apply (r : Fin 65536) (κ : Fin 256) :
    val_main_v35 (F := Ideal) a0 a1 a2 a3 a4 a5 a6 a7 a8 (ix2 r κ) = moved (weightsOf a1 a2 a3 a4 a5 a6 a7 a8) (rowOf a0 r) κ := by
  unfold val_main_v35 val_main_v34 val_main_v21 moved
  rw [addf_apply, mulf_apply, transform_apply, scale_apply, slice2_axis1_apply 0 _ _ r κ (lo κ) (Nat.zero_add _).symm,
    params_apply]

/-- THE FIRST RESULT at (r, q): the output row of row r. -/
theorem out_apply (r : Fin 65536) (q : Fin 512) :
    val_main_v36 (F := Ideal) a0 a1 a2 a3 a4 a5 a6 a7 a8 (ix2 r q) = outRow (weightsOf a1 a2 a3 a4 a5 a6 a7 a8) (rowOf a0 r) q := by
  unfold val_main_v36 outRow
  by_cases h : q.val < 256
  · rw [dif_pos h]
    refine (concatenate_pair_apply_left (s₁ := S65536x256) (s₂ := S65536x256) (1 : Fin 2) _ _ _ (ix2 r q) rfl (ix2 r (⟨q.val, h⟩ : Fin 256) : S65536x256.Idx) (fun b => ?_)).trans ?_
    · match b with
      | ⟨0, _⟩ => rfl
      | ⟨1, _⟩ => rfl
    · exact (identity_apply a0 r ⟨q.val, h⟩).trans rfl
  · rw [dif_neg h]
    have hq : q.val - 256 < 256 := by have := q.isLt; omega
    refine (concatenate_pair_apply_right (s₁ := S65536x256) (s₂ := S65536x256) (1 : Fin 2) _ _ _ (ix2 r q) rfl rfl (ix2 r (⟨q.val - 256, hq⟩ : Fin 256) : S65536x256.Idx)
      (fun b hb => ?_) ?_).trans (moved_apply a0 a1 a2 a3 a4 a5 a6 a7 a8 r ⟨q.val - 256, hq⟩)
    · match b with
      | ⟨0, _⟩ => rfl
      | ⟨1, _⟩ => exact absurd rfl hb
    · show q.val - 256 + 256 = q.val
      omega

/-- THE SECOND RESULT at r: the log-determinant of row r. -/
theorem logDet_apply (r : Fin 65536) :
    val_main_v37 (F := Ideal) a0 a1 a2 a3 a4 a5 a6 a7 a8 (ix1 r) = logDet (weightsOf a1 a2 a3 a4 a5 a6 a7 a8) (rowOf a0 r) := by
  unfold val_main_v37 val_main_cst_3 val_main_v33 logDet
  refine (RowSum.hostReduceAdd_row_apply _ _ _ (by decide) _ r).trans ?_
  rw [constant_apply, Ideal.ofBits_zero_f32, zero_add]
  refine Finset.sum_congr rfl (fun κ _ => ?_)
  rw [hostLog_apply, scale_apply]

/-- The first result is the outputs of all rows. -/
theorem out_eq : val_main_v36 (F := Ideal) a0 a1 a2 a3 a4 a5 a6 a7 a8 = outArr a0 a1 a2 a3 a4 a5 a6 a7 a8 := by
  funext i
  rw [eq_ix2 i]
  exact out_apply a0 a1 a2 a3 a4 a5 a6 a7 a8 (i 0) (i 1)

/-- The second result is the log-determinants of all rows. -/
theorem logDet_eq : val_main_v37 (F := Ideal) a0 a1 a2 a3 a4 a5 a6 a7 a8 = ladArr a0 a1 a2 a3 a4 a5 a6 a7 a8 := by
  funext i
  rw [eq_ix1 i]
  exact logDet_apply a0 a1 a2 a3 a4 a5 a6 a7 a8 (i 0)

end Cert.Coupling.Reference

end
-- ==== Proof.lean ====
/-
  A coupling layer over 65536 rows of 512 features, as one tiled kernel and as whole-array host code.

  Each row keeps its first 256 features and moves its last 256 by an affine map whose scale and shift a four-layer
  network computes from the first 256: out = x_hi * (logistic (u + 2) + 0.001) + shift, and the row's log-determinant
  is the sum of the logarithms of the 256 scales. The kernel does this for one tile of 512 rows per grid point, with
  the weight matrices narrowed to the matrix unit's input format first; the reference does it for all rows at once.

  At the extended reals the two agree entry by entry, with no use of the precondition: narrowing a float is the
  identity there; a matrix product into a zero accumulator and a dot_general are the same sum over the contracted
  coordinate (LibPlainDot), so each layer is the same affine unit on both sides (LibDense); the kernel's logistic
  operation is by definition the quotient 1 / (1 + exp (-u)) the reference spells out; the kernel's row sum and the
  host's sum from zero are the same finite sum (LibRowSum). Both sides are therefore the row function of RowNet
  applied to each row of x: KernelRows reads the kernel body that way, KernelArrays lays the 128 tiles out over the
  two result arrays and reads the host lines around the launch, and RefRows reads the reference's stages.
  The word-level kernel, the idealized kernel and the reference each terminate with their arguments unchanged:
  the first two by the generated frames, the reference by its generated run.
-/
import proofs.«120934_j28260884807682_1_alg».proof.Defs
import proofs.«120934_j28260884807682_1_alg».proof.Proof.Gen.Kernel
import proofs.«120934_j28260884807682_1_alg».proof.Proof.Gen.Kernel.Skeleton
import proofs.«120934_j28260884807682_1_alg».proof.Proof.Gen.Kernel.Launch
import proofs.«120934_j28260884807682_1_alg».proof.Proof.Gen.Kernel.Points
import proofs.«120934_j28260884807682_1_alg».proof.Proof.Gen.Kernel.Frame
import proofs.«120934_j28260884807682_1_alg».proof.Proof.Gen.KernelIdeal
import proofs.«120934_j28260884807682_1_alg».proof.Proof.Gen.KernelIdeal.Skeleton
import proofs.«120934_j28260884807682_1_alg».proof.Proof.Gen.KernelIdeal.Launch
import proofs.«120934_j28260884807682_1_alg».proof.Proof.Gen.KernelIdeal.Points
import proofs.«120934_j28260884807682_1_alg».proof.Proof.Gen.KernelIdeal.Frame
import proofs.«120934_j28260884807682_1_alg».proof.Proof.Gen.ReferenceIdeal
import proofs.«120934_j28260884807682_1_alg».proof.Proof.Gen.ReferenceIdeal.Run
import proofs.«120934_j28260884807682_1_alg».proof.Proof.Gen.ReferenceIdeal.Read
import proofs.«120934_j28260884807682_1_alg».proof.Proof.Gen.Pre_finite_inputs
import proofs.«120934_j28260884807682_1_alg».proof.Proof.KernelArrays
import proofs.«120934_j28260884807682_1_alg».proof.Proof.RefRows
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the nine arguments, the kernel and the reference both end with the outputs of all rows
    in the first result and the rows' log-determinants in the second. -/
theorem algebraic : Cert.algebraic_KernelIdeal_ReferenceIdeal := by
  intro m ρ m' ρ' _ hagree
  refine ⟨fun c => Cert.Coupling.Kernel.outK m c, fun c => Cert.Coupling.Kernel.ladK m c, Cert.Coupling.Kernel.run m ρ, ?_⟩
  refine (θ_run Cert.ReferenceIdeal.defs _ _).mono (fun _ h c => ?_) (Cert.ReferenceIdeal.Value.run (F := Ideal) m' ρ')
  obtain ⟨h0, h1, h2, h3, h4, h5, h6, h7, h8⟩ := hagree c
  refine ⟨(h c).1.trans ((Cert.ReferenceIdeal.Read.val_main_v36_eq _ _ _ _ _ _ _ _ _).trans
      ((Cert.Coupling.Reference.out_eq _ _ _ _ _ _ _ _ _).trans ?_)),
    (h c).2.1.trans ((Cert.ReferenceIdeal.Read.val_main_v37_eq _ _ _ _ _ _ _ _ _).trans
      ((Cert.Coupling.Reference.logDet_eq _ _ _ _ _ _ _ _ _).trans ?_)), (h c).2.2⟩
  · rw [h0, h1, h2, h3, h4, h5, h6, h7, h8]
  · rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
